-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1000000 : Shape := ⟨1, ![1000000]⟩
abbrev S1600000 : Shape := ⟨1, ![1600000]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg21 : FVec F S2 .f32) (main_v98 : IVec S_ 1) (main_v101 : IVec S128x2 1) (main_c_39 : IVec S_ 1) : IVec S_ 1 :=
  let main_v102 : IVec S_ 1 := (fun x v => Host.reduce IntOp.andi x v reducesTo_S128x2_S_d0_1 h_S_) main_v101 main_c_39
  let main_v103 : IVec S_ 1 := andi main_v98 main_v102
  let main_v104 : FVec F S2 .f32 := Host.absf main_arg21
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  main_v108

def fn_part5 {F : FTy → Type} [FloatOps F] (main_arg18 : FVec F S128 .f32) (main_arg19 : FVec F S128x128 .f32) (main_arg20 : FVec F S128x2 .f32) (main_arg21 : FVec F S2 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128x2 .f32 := Host.absf main_arg20
  let main_cst_38 : FVec F S_ .f32 := constant S_ .f32 0x7F800000#32
  let main_v100 : FVec F S128x2 .f32 := broadcastInDim S128x2 ![] bcast_S_S128x2 main_cst_38
  let main_v101 : IVec S128x2 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x2 .f32) (main_arg21 : FVec F S2 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x2 .f32) (main_arg21 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x2 .f32) (main_arg21 : FVec F S2 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x2 .f32) (main_arg21 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : FVec F S100000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x2 .f32) (main_arg21 : FVec F S2 .f32) (main_arg22 : IVec S1000000 32) (main_arg23 : IVec S1000000 32) (main_arg24 : IVec S1600000 32) (main_arg25 : IVec S1600000 32) (main_arg26 : IVec S800000 32) (main_arg27 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1000000 : Shape := ⟨1, ![1000000]⟩
abbrev S1600000 : Shape := ⟨1, ![1600000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 83
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128x2, .f32⟩
  | .hbm, ⟨21, _⟩ => ⟨S2, .f32⟩
  | .hbm, ⟨22, _⟩ => ⟨S1000000, .i32⟩
  | .hbm, ⟨23, _⟩ => ⟨S1000000, .i32⟩
  | .hbm, ⟨24, _⟩ => ⟨S1600000, .i32⟩
  | .hbm, ⟨25, _⟩ => ⟨S1600000, .i32⟩
  | .hbm, ⟨26, _⟩ => ⟨S800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S1x2, .f32⟩
  | .hbm, ⟨82, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_4 : Ref sig .tc := ⟨.hbm, 55, rfl⟩
abbrev main_v21 : Ref sig .tc := ⟨.hbm, 56, rfl⟩
abbrev main_v22 : Ref sig .tc := ⟨.hbm, 57, rfl⟩
abbrev main_c_5 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_6 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_7 : Ref sig .tc := ⟨.hbm, 68, rfl⟩
abbrev main_v31 : Ref sig .tc := ⟨.hbm, 69, rfl⟩
abbrev main_cst_8 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_9 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S50000x2.size a
  hwx1_7 : ∀ i : grid1.Coords, EltTy.bits .f32 = 32 ∨ (Rect.block (s := S50000x2) S5000x2.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg20) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1000000 : Shape := ⟨1, ![1000000]⟩
abbrev S1600000 : Shape := ⟨1, ![1600000]⟩
abbrev S800000 : Shape := ⟨1, ![800000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S1600000x1 : Shape := ⟨2, ![1600000, 1]⟩
abbrev S1600000x128 : Shape := ⟨2, ![1600000, 128]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x2 : Shape := ⟨2, ![50000, 2]⟩
abbrev S1x2 : Shape := ⟨2, ![1, 2]⟩

abbrev nBuf : Space → Nat
  | .hbm => 169
  | .vmem => 0
  | .smem => 0
  | _ => 0

abbrev hbmTy0_0 (i : Nat) : BufTy := match i % 128 with
  | 0 => ⟨S50000x128, .f32⟩
  | 1 => ⟨S100000x128, .f32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x2, .f32⟩
  | 21 => ⟨S2, .f32⟩
  | 22 => ⟨S1000000, .i32⟩
  | 23 => ⟨S1000000, .i32⟩
  | 24 => ⟨S1600000, .i32⟩
  | 25 => ⟨S1600000, .i32⟩
  | 26 => ⟨S800000, .i32⟩
  | 27 => ⟨S800000, .i32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x128, .f32⟩
  | 37 => ⟨S_, .f32⟩
  | 38 => ⟨S100000x128, .f32⟩
  | 39 => ⟨S1000000x1, .i32⟩
  | 40 => ⟨S100000x128, .f32⟩
  | 41 => ⟨S_, .f32⟩
  | 42 => ⟨S1000000, .f32⟩
  | 43 => ⟨S_, .f32⟩
  | 44 => ⟨S100000, .f32⟩
  | 45 => ⟨S1000000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S100000x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S_, .f32⟩
  | 108 => ⟨S800000, .f32⟩
  | 109 => ⟨S_, .f32⟩
  | 110 => ⟨S50000, .f32⟩
  | 111 => ⟨S800000x1, .i32⟩
  | 112 => ⟨S50000, .f32⟩
  | 113 => ⟨S_, .f32⟩
  | 114 => ⟨S50000, .f32⟩
  | 115 => ⟨S50000, .f32⟩
  | 116 => ⟨S50000x1, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S50000x128, .f32⟩
  | 124 => ⟨S50000x128, .f32⟩
  | 125 => ⟨S_, .f32⟩
  | 126 => ⟨S100000x128, .f32⟩
  | 127 => ⟨S100000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000x1, .f32⟩
  | 26 => ⟨S50000x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x2, .f32⟩
  | 38 => ⟨S1x2, .f32⟩
  | 39 => ⟨S50000x2, .f32⟩
  | 40 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_4 : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_cst_8 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_9 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_10 : Ref sig .tc := ⟨.hbm, 91, rfl⟩
abbrev main_v51 : Ref sig .tc := ⟨.hbm, 92, rfl⟩
abbrev main_v52 : Ref sig .tc := ⟨.hbm, 93, rfl⟩
abbrev main_c_11 : Ref sig .tc := ⟨.hbm, 94, rfl⟩
abbrev main_v53 : Ref sig .tc := ⟨.hbm, 95, rfl⟩
abbrev main_v54 : Ref sig .tc := ⟨.hbm, 96, rfl⟩
abbrev main_c_12 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_13 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_14 : Ref sig .tc := ⟨.hbm, 107, rfl⟩
abbrev main_v63 : Ref sig .tc := ⟨.hbm, 108, rfl⟩
abbrev main_cst_15 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_16 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call0_cst : Ref sig .tc := ⟨.hbm, 125, rfl⟩
abbrev main_call0_v0 : Ref sig .tc := ⟨.hbm, 126, rfl⟩
abbrev main_v78 : Ref sig .tc := ⟨.hbm, 127, rfl⟩
abbrev main_call1_cst : Ref sig .tc := ⟨.hbm, 128, rfl⟩
abbrev main_call1_v0 : Ref sig .tc := ⟨.hbm, 129, rfl⟩
abbrev main_v79 : Ref sig .tc := ⟨.hbm, 130, rfl⟩
abbrev main_c_17 : Ref sig .tc := ⟨.hbm, 131, rfl⟩
abbrev main_v80 : Ref sig .tc := ⟨.hbm, 132, rfl⟩
abbrev main_v81 : Ref sig .tc := ⟨.hbm, 133, rfl⟩
abbrev main_c_18 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_19 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_20 : Ref sig .tc := ⟨.hbm, 144, rfl⟩
abbrev main_v90 : Ref sig .tc := ⟨.hbm, 145, rfl⟩
abbrev main_cst_21 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_22 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_call2_cst : Ref sig .tc := ⟨.hbm, 162, rfl⟩
abbrev main_call2_v0 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.SageSpec.lean ====
/-
  The mathematics both programs compute, over the extended reals.

  One mean-aggregation layer sends the aggregated neighbour features `a` and the node features `x`
  (both 50000 × 128) to  relu(a · Wl + x · Wr + b):  entry (r, c) is
      max ((∑ₖ a[r,k] · Wl[k,c] + ∑ₖ x[r,k] · Wr[k,c]) + b[c]) 0.
  The final linear map sends s (50000 × 128) to  s · W + b  (50000 × 2).
  The whole network is two layers, the second fed by the first through the same neighbour aggregation
  (carried here as an unopened function `A` of the node features), followed by the linear map.

  The kernel adds the two products first and the bias last; the reference adds the bias to the first
  product and the second product last. Addition on the extended reals is commutative and associative
  (the infinities included), so the two orders agree: `layerAt_eq_biasFirst`.
-/
import Idealize.ShloMosaic.PureOps.Ideal
import Idealize.ShloMosaic.Lib.ValueIdx

noncomputable section

namespace Cert.Sage

open Idealize.ShloMosaic Idealize.ShloMosaic.ValueIdx

/-- Entry (r, c) of one layer: the two matrix products summed, the bias added, clipped below at zero. -/
def layerAt (a x : (⟨2, ![50000, 128]⟩ : Shape).Idx → EReal) (wl wr : (⟨2, ![128, 128]⟩ : Shape).Idx → EReal)
    (b : (⟨1, ![128]⟩ : Shape).Idx → EReal) (r : Fin 50000) (c : Fin 128) : EReal :=
  max ((∑ k : Fin 128, a (ix2 r k) * wl (ix2 k c) + ∑ k : Fin 128, x (ix2 r k) * wr (ix2 k c)) + b (ix1 c)) 0

/-- One layer as a whole array. -/
def layer (a x : (⟨2, ![50000, 128]⟩ : Shape).Idx → EReal) (wl wr : (⟨2, ![128, 128]⟩ : Shape).Idx → EReal)
    (b : (⟨1, ![128]⟩ : Shape).Idx → EReal) : (⟨2, ![50000, 128]⟩ : Shape).Idx → EReal :=
  fun i => layerAt a x wl wr b (i 0) (i 1)

/-- Entry (r, c) of the final linear map. -/
def headAt (s : (⟨2, ![50000, 128]⟩ : Shape).Idx → EReal) (w : (⟨2, ![128, 2]⟩ : Shape).Idx → EReal)
    (b : (⟨1, ![2]⟩ : Shape).Idx → EReal) (r : Fin 50000) (c : Fin 2) : EReal :=
  ∑ k : Fin 128, s (ix2 r k) * w (ix2 k c) + b (ix1 c)

/-- The final linear map as a whole array. -/
def head (s : (⟨2, ![50000, 128]⟩ : Shape).Idx → EReal) (w : (⟨2, ![128, 2]⟩ : Shape).Idx → EReal)
    (b : (⟨1, ![2]⟩ : Shape).Idx → EReal) : (⟨2, ![50000, 2]⟩ : Shape).Idx → EReal :=
  fun i => headAt s w b (i 0) (i 1)

/-- The network: layer 1 on the node features, layer 2 on layer 1's result, each fed by the neighbour
    aggregation `A` of its own input, then the linear map. -/
def net (A : ((⟨2, ![50000, 128]⟩ : Shape).Idx → EReal) → (⟨2, ![50000, 128]⟩ : Shape).Idx → EReal)
    (x : (⟨2, ![50000, 128]⟩ : Shape).Idx → EReal)
    (wl1 wr1 : (⟨2, ![128, 128]⟩ : Shape).Idx → EReal) (b1 : (⟨1, ![128]⟩ : Shape).Idx → EReal)
    (wl2 wr2 : (⟨2, ![128, 128]⟩ : Shape).Idx → EReal) (b2 : (⟨1, ![128]⟩ : Shape).Idx → EReal)
    (w : (⟨2, ![128, 2]⟩ : Shape).Idx → EReal) (b : (⟨1, ![2]⟩ : Shape).Idx → EReal) :
    (⟨2, ![50000, 2]⟩ : Shape).Idx → EReal :=
  head (layer (A (layer (A x) x wl1 wr1 b1)) (layer (A x) x wl1 wr1 b1) wl2 wr2 b2) w b

/-- The bias may be added between the two products instead of after them. -/
theorem layerAt_eq_biasFirst (a x : (⟨2, ![50000, 128]⟩ : Shape).Idx → EReal) (wl wr : (⟨2, ![128, 128]⟩ : Shape).Idx → EReal)
    (b : (⟨1, ![128]⟩ : Shape).Idx → EReal) (r : Fin 50000) (c : Fin 128) :
    max ((∑ k : Fin 128, a (ix2 r k) * wl (ix2 k c) + b (ix1 c)) + ∑ k : Fin 128, x (ix2 r k) * wr (ix2 k c)) 0
      = layerAt a x wl wr b r c := by
  unfold layerAt
  rw [add_right_comm]

end Cert.Sage

end
-- ==== Proof.SageBody.lean ====
/-
  What each kernel body stores, entry by entry, over the extended reals.

  Both bodies load their blocks whole. The first stores
      max ((x0 · x2 + x1 · x3) + row of x4) 0
  (two block products into zero accumulators, the one-row bias broadcast down the rows, clipped at zero);
  the second computes the same value and stores its product with x5 plus the one-row bias x6.
  A change of float format is the identity here, so the casts to bf16 drop out; a block product into the
  zero accumulator, read at (p, q), is ∑ₖ l[p,k] · r[k,q].
-/
import proofs.«422410_j35562329210980_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SageBody

open Cert.KernelIdeal Cert.KernelIdeal.Gen Idealize.ShloMosaic Idealize.ShloMosaic.ValueIdx

/-! ## The operand indices of the 128-column block product -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The operand indices of the 2-column block product -/

theorem lhsB_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhsB_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhsB_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhsB_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-! ## A block product at an entry -/

/-- The 128-column block product into the zero accumulator, read at (p, q): row p of the left block against
    column q of the right. -/
theorem matmulA_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- The 2-column block product into the zero accumulator, read at (p, q). -/
theorem matmulB_apply (l : FVec Ideal S5000x128 .bf16) (r : FVec Ideal S128x2 .bf16) (p : Fin 5000) (q : Fin 2) :
    matmul dot_S5000x128_S128x2_S5000x2_1_0_0_1_n_n none l r (constant S5000x2 .f32 0x00000000#32) (ix2 p q)
      = ∑ k : Fin 128, l (ix2 p k) * r (ix2 k q) := by
  simp only [matmul]
  rw [Ideal.matmul_constant_zero_apply, ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p q) ((contrEquiv1 dot_S5000x128_S128x2_S5000x2_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x2_S5000x2_1_0_0_1_n_n.rhsIdx (ix2 p q) ((contrEquiv1 dot_S5000x128_S128x2_S5000x2_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The stored values -/

/-- The hidden activation a body computes from its five blocks, at (p, q). -/
def act (x0 x1 : Vec Ideal S5000x128 .f32) (x2 x3 : Vec Ideal S128x128 .f32) (x4 : Vec Ideal S1x128 .f32) (p : Fin 5000) (q : Fin 128) : EReal :=
  max ((∑ k : Fin 128, x0 (ix2 p k) * x2 (ix2 k q) + ∑ k : Fin 128, x1 (ix2 p k) * x3 (ix2 k q)) + x4 (ix2 (0 : Fin 1) q)) 0

/-- The first body's stored block at (p, q). -/
theorem pay0_apply (x0 x1 : Vec Ideal S5000x128 .f32) (x2 x3 : Vec Ideal S128x128 .f32) (x4 : Vec Ideal S1x128 .f32) (p : Fin 5000) (q : Fin 128) :
    k0_pay1 (F := Ideal) x0 x1 x2 x3 x4 (ix2 p q) = act x0 x1 x2 x3 x4 p q := by
  unfold k0_pay1 act
  simp only [maximumf_apply, addf_apply, broadcast_apply]
  rw [matmulA_apply, matmulA_apply, broadcastTo_1b_ab_apply]
  simp only [truncf_apply, shapeCast_self]
  exact congrArg (max _) Ideal.ofBits_zero_f32

/-- The second body's stored block at (p, c): the activation's row p against column c of x5, plus the bias. -/
theorem pay1_apply (x0 x1 : Vec Ideal S5000x128 .f32) (x2 x3 : Vec Ideal S128x128 .f32) (x4 : Vec Ideal S1x128 .f32)
    (x5 : Vec Ideal S128x2 .f32) (x6 : Vec Ideal S1x2 .f32) (p : Fin 5000) (c : Fin 2) :
    k1_pay1 (F := Ideal) x0 x1 x2 x3 x4 x5 x6 (ix2 p c)
      = ∑ k : Fin 128, act x0 x1 x2 x3 x4 p k * x5 (ix2 k c) + x6 (ix2 (0 : Fin 1) c) := by
  unfold k1_pay1 act
  simp only [addf_apply]
  rw [matmulB_apply, broadcastTo_1b_ab_apply]
  simp only [truncf_apply, shapeCast_self, maximumf_apply, addf_apply, broadcast_apply, matmulA_apply, broadcastTo_1b_ab_apply]
  rw [show (FloatOps.ofBits (F := Ideal) FTy.f32 0#32) = 0 from Ideal.ofBits_zero_f32]

end Cert.KernelIdeal.SageBody

end
-- ==== Proof.SageRegion0.lean ====
/-
  The first pallas_call's result array, as one function of the arrays the region finds.

  The grid has ten points; point t works on rows 5000·t … 5000·t + 4999 of the two 50000 × 128 inputs and of
  the output, and on the whole of the two 128 × 128 weights and of the 1 × 128 bias. So row p of a block is
  row 5000·t + p of its array (`row`, the `blk*_apply` lemmas), what point t writes back is its block of one
  layer of the whole arrays (`flushed0`), the ten blocks tile the output (`cover0`), and the array ends holding
  that layer (`final0`).
-/
import proofs.«422410_j35562329210980_1_alg».proof.Proof.Gen.KernelIdeal.Frame
import proofs.«422410_j35562329210980_1_alg».proof.Proof.SageSpec
import proofs.«422410_j35562329210980_1_alg».proof.Proof.SageBody
import Idealize.ShloMosaic.Lib.ValueIdx
import Idealize.ShloMosaic.Lib.Pipeline.Value

noncomputable section

namespace Cert.KernelIdeal.SageRegion0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Row p of point t's block is row 5000·t + p of the array. -/
def row (t : Fin cfg0.N) (p : Fin 5000) : Fin 50000 :=
  ⟨t.val * 5000 + p.val, by have := (idx_facts t).2.2.2.2.2.2.2.2.2.2.2.2; have := p.isLt; omega⟩

theorem blk0_apply (c : Dev nD) (t : Fin cfg0.N) (p : Fin 5000) (k : Fin 128) :
    (iblk0 V c 0 t : Vec Ideal S5000x128 .f32) (ix2 p k) = (V c main_v18 : S50000x128.Idx → EReal) (ix2 (row t p) k) := by
  obtain ⟨e0, e1, -⟩ := idx_facts t
  unfold iblk0
  rw [View.read_apply]
  show V c main_v18 _ = V c main_v18 _
  refine congrArg _ ?_
  funext a
  apply Fin.ext
  match a with
  | ⟨0, _⟩ => show win0_0.index t 0 * 5000 + 1 * p.val = t.val * 5000 + p.val; rw [e0]; omega
  | ⟨1, _⟩ => show win0_0.index t 1 * 128 + 1 * k.val = k.val; rw [e1]; omega

theorem blk1_apply (c : Dev nD) (t : Fin cfg0.N) (p : Fin 5000) (k : Fin 128) :
    (iblk0 V c 1 t : Vec Ideal S5000x128 .f32) (ix2 p k) = (V c main_arg0 : S50000x128.Idx → EReal) (ix2 (row t p) k) := by
  obtain ⟨-, -, e0, e1, -⟩ := idx_facts t
  unfold iblk0
  rw [View.read_apply]
  show V c main_arg0 _ = V c main_arg0 _
  refine congrArg _ ?_
  funext a
  apply Fin.ext
  match a with
  | ⟨0, _⟩ => show win0_1.index t 0 * 5000 + 1 * p.val = t.val * 5000 + p.val; rw [e0]; omega
  | ⟨1, _⟩ => show win0_1.index t 1 * 128 + 1 * k.val = k.val; rw [e1]; omega

theorem blk2_apply (c : Dev nD) (t : Fin cfg0.N) (k : Fin 128) (q : Fin 128) :
    (iblk0 V c 2 t : Vec Ideal S128x128 .f32) (ix2 k q) = (V c main_arg8 : S128x128.Idx → EReal) (ix2 k q) := by
  obtain ⟨-, -, -, -, e0, e1, -⟩ := idx_facts t
  unfold iblk0
  rw [View.read_apply]
  show V c main_arg8 _ = V c main_arg8 _
  refine congrArg _ ?_
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

theorem blk3_apply (c : Dev nD) (t : Fin cfg0.N) (k : Fin 128) (q : Fin 128) :
    (iblk0 V c 3 t : Vec Ideal S128x128 .f32) (ix2 k q) = (V c main_arg10 : S128x128.Idx → EReal) (ix2 k q) := by
  obtain ⟨-, -, -, -, -, -, e0, e1, -⟩ := idx_facts t
  unfold iblk0
  rw [View.read_apply]
  show V c main_arg10 _ = V c main_arg10 _
  refine congrArg _ ?_
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

theorem blk4_apply (c : Dev nD) (t : Fin cfg0.N) (u : Fin 1) (q : Fin 128) :
    (iblk0 V c 4 t : Vec Ideal S1x128 .f32) (ix2 u q) = (V c main_v19 : S1x128.Idx → EReal) (ix2 u q) := by
  obtain ⟨-, -, -, -, -, -, -, -, e0, e1, -⟩ := idx_facts t
  unfold iblk0
  rw [View.read_apply]
  show V c main_v19 _ = V c main_v19 _
  refine congrArg _ ?_
  funext a
  apply Fin.ext
  match a with
  | ⟨0, _⟩ => show win0_4.index t 0 * 1 + 1 * u.val = u.val; rw [e0]; omega
  | ⟨1, _⟩ => show win0_4.index t 1 * 128 + 1 * q.val = q.val; rw [e1]; omega

theorem emb5 (t : Fin cfg0.N) (p : Fin 5000) (q : Fin 128) :
    ((cfg0.win 5).blk t).view.emb (ix2 p q) = (ix2 (row t p) q : S50000x128.Idx) := by
  obtain ⟨-, -, -, -, -, -, -, -, -, -, e0, e1, -⟩ := idx_facts t
  funext a
  apply Fin.ext
  match a with
  | ⟨0, _⟩ => show win0_5.index t 0 * 5000 + 1 * p.val = t.val * 5000 + p.val; rw [e0]; omega
  | ⟨1, _⟩ => show win0_5.index t 1 * 128 + 1 * q.val = q.val; rw [e1]; omega

def G0 (c : Dev nD) : S50000x128.Idx → EReal :=
  Sage.layer (V c main_v18) (V c main_arg0) (V c main_arg8) (V c main_arg10)
    (fun j => (V c main_v19 : S1x128.Idx → EReal) (ix2 (0 : Fin 1) (j 0)))

theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = G0 V c (((cfg0.win 5).blk t).view.emb (ix2 p q))
  refine (SageBody.pay0_apply (iblk0 V c 0 t) (iblk0 V c 1 t) (iblk0 V c 2 t) (iblk0 V c 3 t) (iblk0 V c 4 t) p q).trans ?_
  rw [emb5]
  unfold SageBody.act G0 Sage.layer Sage.layerAt
  simp only [blk0_apply, blk1_apply, blk2_apply, blk3_apply, blk4_apply]

/-- An index of the array is in point t's block iff each coordinate is in the block's range on its axis. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Every row lies in the block of the point numbered by its quotient by 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < 10; omega⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t 0 * 5000 ≤ (i 0).val ∧ (i 0).val < win0_5.index t 0 * 5000 + 5000; rw [e0, ht]; omega
  | ⟨1, _⟩ => show win0_5.index t 1 * 128 ≤ (i 1).val ∧ (i 1).val < win0_5.index t 1 * 128 + 128; rw [e1]; omega

/-- `G0` with the arrays it reads named. -/
theorem G0_eq (c : Dev nD) {a x : S50000x128.Idx → EReal} {wl wr : S128x128.Idx → EReal} {b : (⟨1, ![128]⟩ : Shape).Idx → EReal}
    (h0 : (V c main_v18 : S50000x128.Idx → EReal) = a) (h1 : (V c main_arg0 : S50000x128.Idx → EReal) = x)
    (h2 : (V c main_arg8 : S128x128.Idx → EReal) = wl) (h3 : (V c main_arg10 : S128x128.Idx → EReal) = wr)
    (h4 : (fun j : (⟨1, ![128]⟩ : Shape).Idx => (V c main_v19 : S1x128.Idx → EReal) (ix2 (0 : Fin 1) (j 0))) = b) :
    G0 V c = Sage.layer a x wl wr b := by
  subst h0 h1 h2 h3 h4; rfl

/-- The region's result array after its ten points: one layer of the arrays as the region finds them. -/
theorem final0 (c : Dev nD) : (dat0 V c).arrAt 5 cfg0.N = G0 V c :=
  (dat0 V c).arrAt_eq_of_cover 5 (G0 V c) (fun t _ => flushed0 V c t) cover0

end Cert.KernelIdeal.SageRegion0

end
-- ==== Proof.SageRegion1.lean ====
/-
  The second pallas_call's result array, as one function of the arrays the region finds.

  Again ten points, point t on rows 5000·t … 5000·t + 4999 of the two 50000 × 128 inputs and of the 50000 × 2
  output, and on the whole of the 128 × 128 weights, the 1 × 128 bias, the 128 × 2 matrix and the 1 × 2 bias.
  What point t writes back is its block of the linear map applied to one layer of the whole arrays
  (`flushed1`); the ten blocks tile the output (`cover1`); the array ends holding that (`final1`).
-/
import proofs.«422410_j35562329210980_1_alg».proof.Proof.Gen.KernelIdeal.Frame
import proofs.«422410_j35562329210980_1_alg».proof.Proof.SageSpec
import proofs.«422410_j35562329210980_1_alg».proof.Proof.SageBody
import Idealize.ShloMosaic.Lib.ValueIdx
import Idealize.ShloMosaic.Lib.Pipeline.Value

noncomputable section

namespace Cert.KernelIdeal.SageRegion1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid's ten points: the row-blocked windows move with the point, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ t.val < 10 :=
  (by decide +kernel : ∀ t : Fin grid1.N, _)

/-- Row p of point t's block is row 5000·t + p of the array. -/
def row (t : Fin cfg1.N) (p : Fin 5000) : Fin 50000 :=
  ⟨t.val * 5000 + p.val, by have := (idx_facts t).2.2.2.2.2.2.2.2.2.2.2.2.2.2.2.2; have := p.isLt; omega⟩

theorem blk0_apply (c : Dev nD) (t : Fin cfg1.N) (p : Fin 5000) (k : Fin 128) :
    (iblk1 V c 0 t : Vec Ideal S5000x128 .f32) (ix2 p k) = (V c main_v39 : S50000x128.Idx → EReal) (ix2 (row t p) k) := by
  obtain ⟨e0, e1, -⟩ := idx_facts t
  unfold iblk1
  rw [View.read_apply]
  show V c main_v39 _ = V c main_v39 _
  refine congrArg _ ?_
  funext a
  apply Fin.ext
  match a with
  | ⟨0, _⟩ => show win1_0.index t 0 * 5000 + 1 * p.val = t.val * 5000 + p.val; rw [e0]; omega
  | ⟨1, _⟩ => show win1_0.index t 1 * 128 + 1 * k.val = k.val; rw [e1]; omega

theorem blk1_apply (c : Dev nD) (t : Fin cfg1.N) (p : Fin 5000) (k : Fin 128) :
    (iblk1 V c 1 t : Vec Ideal S5000x128 .f32) (ix2 p k) = (V c main_v20 : S50000x128.Idx → EReal) (ix2 (row t p) k) := by
  obtain ⟨-, -, e0, e1, -⟩ := idx_facts t
  unfold iblk1
  rw [View.read_apply]
  show V c main_v20 _ = V c main_v20 _
  refine congrArg _ ?_
  funext a
  apply Fin.ext
  match a with
  | ⟨0, _⟩ => show win1_1.index t 0 * 5000 + 1 * p.val = t.val * 5000 + p.val; rw [e0]; omega
  | ⟨1, _⟩ => show win1_1.index t 1 * 128 + 1 * k.val = k.val; rw [e1]; omega

theorem blk2_apply (c : Dev nD) (t : Fin cfg1.N) (k : Fin 128) (q : Fin 128) :
    (iblk1 V c 2 t : Vec Ideal S128x128 .f32) (ix2 k q) = (V c main_arg17 : S128x128.Idx → EReal) (ix2 k q) := by
  obtain ⟨-, -, -, -, e0, e1, -⟩ := idx_facts t
  unfold iblk1
  rw [View.read_apply]
  show V c main_arg17 _ = V c main_arg17 _
  refine congrArg _ ?_
  funext a
  apply Fin.ext
  match a with
  | ⟨0, _⟩ => show win1_2.index t 0 * 128 + 1 * k.val = k.val; rw [e0]; omega
  | ⟨1, _⟩ => show win1_2.index t 1 * 128 + 1 * q.val = q.val; rw [e1]; omega

theorem blk3_apply (c : Dev nD) (t : Fin cfg1.N) (k : Fin 128) (q : Fin 128) :
    (iblk1 V c 3 t : Vec Ideal S128x128 .f32) (ix2 k q) = (V c main_arg19 : S128x128.Idx → EReal) (ix2 k q) := by
  obtain ⟨-, -, -, -, -, -, e0, e1, -⟩ := idx_facts t
  unfold iblk1
  rw [View.read_apply]
  show V c main_arg19 _ = V c main_arg19 _
  refine congrArg _ ?_
  funext a
  apply Fin.ext
  match a with
  | ⟨0, _⟩ => show win1_3.index t 0 * 128 + 1 * k.val = k.val; rw [e0]; omega
  | ⟨1, _⟩ => show win1_3.index t 1 * 128 + 1 * q.val = q.val; rw [e1]; omega

theorem blk4_apply (c : Dev nD) (t : Fin cfg1.N) (u : Fin 1) (q : Fin 128) :
    (iblk1 V c 4 t : Vec Ideal S1x128 .f32) (ix2 u q) = (V c main_v40 : S1x128.Idx → EReal) (ix2 u q) := by
  obtain ⟨-, -, -, -, -, -, -, -, e0, e1, -⟩ := idx_facts t
  unfold iblk1
  rw [View.read_apply]
  show V c main_v40 _ = V c main_v40 _
  refine congrArg _ ?_
  funext a
  apply Fin.ext
  match a with
  | ⟨0, _⟩ => show win1_4.index t 0 * 1 + 1 * u.val = u.val; rw [e0]; omega
  | ⟨1, _⟩ => show win1_4.index t 1 * 128 + 1 * q.val = q.val; rw [e1]; omega

theorem blk5_apply (c : Dev nD) (t : Fin cfg1.N) (k : Fin 128) (q : Fin 2) :
    (iblk1 V c 5 t : Vec Ideal S128x2 .f32) (ix2 k q) = (V c main_arg20 : S128x2.Idx → EReal) (ix2 k q) := by
  obtain ⟨-, -, -, -, -, -, -, -, -, -, e0, e1, -⟩ := idx_facts t
  unfold iblk1
  rw [View.read_apply]
  show V c main_arg20 _ = V c main_arg20 _
  refine congrArg _ ?_
  funext a
  apply Fin.ext
  match a with
  | ⟨0, _⟩ => show win1_5.index t 0 * 128 + 1 * k.val = k.val; rw [e0]; omega
  | ⟨1, _⟩ => show win1_5.index t 1 * 2 + 1 * q.val = q.val; rw [e1]; omega

theorem blk6_apply (c : Dev nD) (t : Fin cfg1.N) (u : Fin 1) (q : Fin 2) :
    (iblk1 V c 6 t : Vec Ideal S1x2 .f32) (ix2 u q) = (V c main_v41 : S1x2.Idx → EReal) (ix2 u q) := by
  obtain ⟨-, -, -, -, -, -, -, -, -, -, -, -, e0, e1, -⟩ := idx_facts t
  unfold iblk1
  rw [View.read_apply]
  show V c main_v41 _ = V c main_v41 _
  refine congrArg _ ?_
  funext a
  apply Fin.ext
  match a with
  | ⟨0, _⟩ => show win1_6.index t 0 * 1 + 1 * u.val = u.val; rw [e0]; omega
  | ⟨1, _⟩ => show win1_6.index t 1 * 2 + 1 * q.val = q.val; rw [e1]; omega

theorem emb7 (t : Fin cfg1.N) (p : Fin 5000) (q : Fin 2) :
    ((cfg1.win 7).blk t).view.emb (ix2 p q) = (ix2 (row t p) q : S50000x2.Idx) := by
  obtain ⟨-, -, -, -, -, -, -, -, -, -, -, -, -, -, e0, e1, -⟩ := idx_facts t
  funext a
  apply Fin.ext
  match a with
  | ⟨0, _⟩ => show win1_7.index t 0 * 5000 + 1 * p.val = t.val * 5000 + p.val; rw [e0]; omega
  | ⟨1, _⟩ => show win1_7.index t 1 * 2 + 1 * q.val = q.val; rw [e1]; omega

/-- The region's result: the linear map applied to one layer of the arrays as the region finds them. -/
def G1 (c : Dev nD) : S50000x2.Idx → EReal :=
  Sage.head (Sage.layer (V c main_v39) (V c main_v20) (V c main_arg17) (V c main_arg19)
      (fun j => (V c main_v40 : S1x128.Idx → EReal) (ix2 (0 : Fin 1) (j 0))))
    (V c main_arg20) (fun j => (V c main_v41 : S1x2.Idx → EReal) (ix2 (0 : Fin 1) (j 0)))

/-- `G1` with the arrays it reads named. -/
theorem G1_eq (c : Dev nD) {a s : S50000x128.Idx → EReal} {wl wr : S128x128.Idx → EReal} {b : (⟨1, ![128]⟩ : Shape).Idx → EReal}
    {w : S128x2.Idx → EReal} {b' : (⟨1, ![2]⟩ : Shape).Idx → EReal}
    (h0 : (V c main_v39 : S50000x128.Idx → EReal) = a) (h1 : (V c main_v20 : S50000x128.Idx → EReal) = s)
    (h2 : (V c main_arg17 : S128x128.Idx → EReal) = wl) (h3 : (V c main_arg19 : S128x128.Idx → EReal) = wr)
    (h4 : (fun j : (⟨1, ![128]⟩ : Shape).Idx => (V c main_v40 : S1x128.Idx → EReal) (ix2 (0 : Fin 1) (j 0))) = b)
    (h5 : (V c main_arg20 : S128x2.Idx → EReal) = w)
    (h6 : (fun j : (⟨1, ![2]⟩ : Shape).Idx => (V c main_v41 : S1x2.Idx → EReal) (ix2 (0 : Fin 1) (j 0))) = b') :
    G1 V c = Sage.head (Sage.layer a s wl wr b) w b' := by
  subst h0 h1 h2 h3 h4 h5 h6; rfl

/-- What point t writes back is its block of `G1`. -/
theorem flushed1 (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz,
    View.ld_unit_zero (S := S128x2) hz, View.ld_unit_zero (S := S1x2) hz]
  funext j
  obtain ⟨p, q, rfl⟩ : ∃ (p : Fin 5000) (q : Fin 2), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (ix2 p q)
    = G1 V c (((cfg1.win 7).blk t).view.emb (ix2 p q))
  refine (SageBody.pay1_apply (iblk1 V c 0 t) (iblk1 V c 1 t) (iblk1 V c 2 t) (iblk1 V c 3 t) (iblk1 V c 4 t) (iblk1 V c 5 t) (iblk1 V c 6 t) p q).trans ?_
  rw [emb7]
  unfold SageBody.act G1 Sage.head Sage.headAt Sage.layer Sage.layerAt
  simp only [blk0_apply, blk1_apply, blk2_apply, blk3_apply, blk4_apply, blk5_apply, blk6_apply]

/-- An index of the array is in point t's block iff each coordinate is in the block's range on its axis. -/
theorem mem_blk7 (t : Fin cfg1.N) (i : S50000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v42).slice (win1_7.rect t)).set ↔ _
  rw [View.set_slice_whole, Rect.mem_set_unit]
  exact Iff.rfl

/-- Every row lies in the block of the point numbered by its quotient by 5000. -/
theorem cover1 (i : S50000x2.Idx) :
    ∃ t : Fin cfg1.N, (cfg1.win 7).flush t = true ∧ i ∈ ((cfg1.win 7).blk t).view.set := by
  have hi0 : (i 0).val < 50000 := (i 0).isLt
  have hi1 : (i 1).val < 2 := (i 1).isLt
  obtain ⟨t, ht⟩ : ∃ t : Fin cfg1.N, t.val = (i 0).val / 5000 :=
    ⟨⟨(i 0).val / 5000, by show (i 0).val / 5000 < 10; omega⟩, rfl⟩
  obtain ⟨-, -, -, -, -, -, -, -, -, -, -, -, -, -, e0, e1, -⟩ := idx_facts t
  refine ⟨t, flush1_7 t, ?_⟩
  rw [mem_blk7]
  intro a
  match a with
  | ⟨0, _⟩ => show win1_7.index t 0 * 5000 ≤ (i 0).val ∧ (i 0).val < win1_7.index t 0 * 5000 + 5000; rw [e0, ht]; omega
  | ⟨1, _⟩ => show win1_7.index t 1 * 2 ≤ (i 1).val ∧ (i 1).val < win1_7.index t 1 * 2 + 2; rw [e1]; omega

/-- The region's result array after its ten points. -/
theorem final1 (c : Dev nD) : (dat1 V c).arrAt 7 cfg1.N = G1 V c :=
  (dat1 V c).arrAt_eq_of_cover 7 (G1 V c) (fun t _ => flushed1 V c t) cover1

end Cert.KernelIdeal.SageRegion1

end
-- ==== Proof.SageHost.lean ====
/-
  The arrays each pallas_call finds, read back through the host operations to the arguments.

  Before each call the host computes, from node features x and the edge lists, the mean of every node's incoming
  neighbours: the source indices are wrapped when negative, the rows gathered, summed per destination, and divided
  by the clipped in-degree. That chain is carried here as ONE function `agg` of x and the two index arrays and is
  never opened. The remaining operands are arguments, or a bias reshaped to one row.
-/
import proofs.«422410_j35562329210980_1_alg».proof.Proof.Gen.KernelIdeal.Frame
import Idealize.ShloMosaic.Lib.StableHlo.Run

set_option maxRecDepth 16384

noncomputable section

namespace Cert.KernelIdeal.SageHost

open Cert.KernelIdeal Cert.KernelIdeal.Gen Idealize.ShloMosaic Idealize.ShloMosaic.TcCoe Idealize.SL.Sem Idealize.ShloMosaic.StableHlo

variable {F : FTy → Type} [FloatOps F]

/-- The host's mean over incoming neighbours, as printed: gather the source rows, add them up per destination,
    divide by the in-degree clipped below at one. -/
def agg (x : FVec F S50000x128 .f32) (src dst : IVec S800000 32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-! ## The host stretch before the first call, over any contents `W` it starts from

The stretch writes only its own intermediate buffers, so an argument reads as before it (`keep0_*`); the first
call's aggregated input is `agg` of three arguments, and its bias operand is an argument reshaped to one row. -/

theorem keep0_arg0 (W : Valuation τ sig (Elt F)) :
    StableHlo.after hostOps0 W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep0_arg8 (W : Valuation τ sig (Elt F)) :
    StableHlo.after hostOps0 W (Proc.devRef .tc main_arg8) = W (Proc.devRef .tc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep0_arg10 (W : Valuation τ sig (Elt F)) :
    StableHlo.after hostOps0 W (Proc.devRef .tc main_arg10) = W (Proc.devRef .tc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep0_arg17 (W : Valuation τ sig (Elt F)) :
    StableHlo.after hostOps0 W (Proc.devRef .tc main_arg17) = W (Proc.devRef .tc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep0_arg18 (W : Valuation τ sig (Elt F)) :
    StableHlo.after hostOps0 W (Proc.devRef .tc main_arg18) = W (Proc.devRef .tc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep0_arg19 (W : Valuation τ sig (Elt F)) :
    StableHlo.after hostOps0 W (Proc.devRef .tc main_arg19) = W (Proc.devRef .tc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep0_arg20 (W : Valuation τ sig (Elt F)) :
    StableHlo.after hostOps0 W (Proc.devRef .tc main_arg20) = W (Proc.devRef .tc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep0_arg21 (W : Valuation τ sig (Elt F)) :
    StableHlo.after hostOps0 W (Proc.devRef .tc main_arg21) = W (Proc.devRef .tc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep0_arg26 (W : Valuation τ sig (Elt F)) :
    StableHlo.after hostOps0 W (Proc.devRef .tc main_arg26) = W (Proc.devRef .tc main_arg26) :=
  StableHlo.after_of_forall_not_mem (b := Proc.devRef .tc main_arg26) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep0_arg27 (W : Valuation τ sig (Elt F)) :
    StableHlo.after hostOps0 W (Proc.devRef .tc main_arg27) = W (Proc.devRef .tc main_arg27) :=
  StableHlo.after_of_forall_not_mem (b := Proc.devRef .tc main_arg27) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 2000000 in
theorem after0_v18 (W : Valuation τ sig (Elt F)) :
    StableHlo.after hostOps0 W (Proc.devRef .tc main_v18)
      = agg (W (Proc.devRef .tc main_arg0)) (W (Proc.devRef .tc main_arg26)) (W (Proc.devRef .tc main_arg27)) := by
  after_results
  rfl

set_option maxHeartbeats 2000000 in
theorem after0_v19 (W : Valuation τ sig (Elt F)) :
    StableHlo.after hostOps0 W (Proc.devRef .tc main_v19) = shapeCast S1x128 (W (Proc.devRef .tc main_arg9)) shapeCasts_S128_S1x128 := by
  after_results
  rfl

/-! ## The host stretch between the calls, over any contents `W` it starts from

Again only intermediates are written: the first call's result and the arguments read as before (`keep1_*`);
the second call's aggregated input is `agg` of the first call's result, and its two bias operands are
arguments reshaped to one row. -/

theorem keep1_v20 (W : Valuation τ sig (Elt F)) :
    StableHlo.after hostOps1 W (Proc.devRef .tc main_v20) = W (Proc.devRef .tc main_v20) :=
  StableHlo.after_of_forall_not_mem (b := Proc.devRef .tc main_v20) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep1_arg17 (W : Valuation τ sig (Elt F)) :
    StableHlo.after hostOps1 W (Proc.devRef .tc main_arg17) = W (Proc.devRef .tc main_arg17) :=
  StableHlo.after_of_forall_not_mem (b := Proc.devRef .tc main_arg17) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep1_arg19 (W : Valuation τ sig (Elt F)) :
    StableHlo.after hostOps1 W (Proc.devRef .tc main_arg19) = W (Proc.devRef .tc main_arg19) :=
  StableHlo.after_of_forall_not_mem (b := Proc.devRef .tc main_arg19) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep1_arg20 (W : Valuation τ sig (Elt F)) :
    StableHlo.after hostOps1 W (Proc.devRef .tc main_arg20) = W (Proc.devRef .tc main_arg20) :=
  StableHlo.after_of_forall_not_mem (b := Proc.devRef .tc main_arg20) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 2000000 in
theorem after1_v39 (W : Valuation τ sig (Elt F)) :
    StableHlo.after hostOps1 W (Proc.devRef .tc main_v39)
      = agg (W (Proc.devRef .tc main_v20)) (W (Proc.devRef .tc main_arg26)) (W (Proc.devRef .tc main_arg27)) := by
  after_results
  rfl

set_option maxHeartbeats 2000000 in
theorem after1_v40 (W : Valuation τ sig (Elt F)) :
    StableHlo.after hostOps1 W (Proc.devRef .tc main_v40) = shapeCast S1x128 (W (Proc.devRef .tc main_arg18)) shapeCasts_S128_S1x128 := by
  after_results
  rfl

set_option maxHeartbeats 2000000 in
theorem after1_v41 (W : Valuation τ sig (Elt F)) :
    StableHlo.after hostOps1 W (Proc.devRef .tc main_v41) = shapeCast S1x2 (W (Proc.devRef .tc main_arg21)) shapeCasts_S2_S1x2 := by
  after_results
  rfl

end Cert.KernelIdeal.SageHost

end
-- ==== Proof.SageValue.lean ====
/-
  The kernel program's result, as the network of SageSpec over the extended reals.

  The program is: host operations, the first call, host operations, the second call. The first call finds the
  neighbour mean of the node features (`agg`), the node features, two weights and a bias reshaped to one row, and
  leaves one layer `s1` of them. The second call finds the neighbour mean of `s1`, `s1` itself, two weights, a
  reshaped bias, the final matrix and its reshaped bias, and leaves the linear map of the second layer: the network.
  A bias reshaped to one row and read along that row is the bias (`bias_row`).
-/
import proofs.«422410_j35562329210980_1_alg».proof.Proof.Gen.KernelIdeal.Frame
import proofs.«422410_j35562329210980_1_alg».proof.Proof.SageSpec
import proofs.«422410_j35562329210980_1_alg».proof.Proof.SageRegion0
import proofs.«422410_j35562329210980_1_alg».proof.Proof.SageRegion1
import proofs.«422410_j35562329210980_1_alg».proof.Proof.SageHost
import proofs.«422410_j35562329210980_1_alg».proof.Proof.SageRun
import Idealize.ShloMosaic.Lib.ValueIdx
import Idealize.ShloMosaic.Lib.ValueLayout

noncomputable section

namespace Cert.KernelIdeal.SageValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- A vector reshaped to one row, read along that row, is the vector. -/
theorem bias_row {n : Nat} (x : (⟨1, ![n]⟩ : Shape).Idx → EReal) (h : (⟨1, ![n]⟩ : Shape).ShapeCasts ⟨2, ![1, n]⟩) :
    (fun j : (⟨1, ![n]⟩ : Shape).Idx => shapeCast ⟨2, ![1, n]⟩ x h (ix2 (0 : Fin 1) (j 0))) = x :=
  funext fun j => (shapeCast_a_1a_apply x h 0 (j 0)).trans (congrArg x (eq_ix1 j).symm)

/-- The neighbour mean along the launch memory's edge lists. -/
abbrev A (c : Dev nD) : (S50000x128.Idx → EReal) → S50000x128.Idx → EReal :=
  fun x => SageHost.agg (F := Ideal) x (m ((c : Thread nD τ).loc main_arg26)) (m ((c : Thread nD τ).loc main_arg27))

/-- The first layer of the launch memory's arguments. -/
abbrev s1 (c : Dev nD) : S50000x128.Idx → EReal :=
  Sage.layer (A m c (m ((c : Thread nD τ).loc main_arg0))) (m ((c : Thread nD τ).loc main_arg0)) (m ((c : Thread nD τ).loc main_arg8)) (m ((c : Thread nD τ).loc main_arg10)) (m ((c : Thread nD τ).loc main_arg9))

/-- After the first call its result array holds the first layer. -/
theorem first_call (c : Dev nD) : (W2 m ρ c (Proc.devRef .tc main_v20) : S50000x128.Idx → EReal) = s1 m c := by
  refine (W2_arr m ρ c 5).trans ?_
  refine (SageRegion0.final0 (V1 m ρ) c).trans ?_
  exact SageRegion0.G0_eq (V1 m ρ) c
    ((SageHost.after0_v18 (W0 m ρ c)).trans rfl)
    ((SageHost.keep0_arg0 (W0 m ρ c)).trans rfl)
    ((SageHost.keep0_arg8 (W0 m ρ c)).trans rfl)
    ((SageHost.keep0_arg10 (W0 m ρ c)).trans rfl)
    (by
      rw [show (V1 m ρ c main_v19 : S1x128.Idx → EReal) = shapeCast S1x128 (m ((c : Thread nD τ).loc main_arg9)) shapeCasts_S128_S1x128
        from (SageHost.after0_v19 (W0 m ρ c)).trans rfl]
      exact bias_row _ _)

/-- An argument the first call does not write reads, after it, as launched. -/
theorem W2_arg (c : Dev nD) (b : Ref sig .tc) (hb : ∀ w, Pipeline.arrRef spec0 w ≠ b)
    (hk : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans (hk.trans rfl)

/-- After the second call the program's result array holds the network of the arguments. -/
theorem result_eq (c : Dev nD) :
    (W4 m ρ c (Proc.devRef .tc main_v42) : S50000x2.Idx → EReal)
      = Sage.net (A m c) (m ((c : Thread nD τ).loc main_arg0)) (m ((c : Thread nD τ).loc main_arg8)) (m ((c : Thread nD τ).loc main_arg10)) (m ((c : Thread nD τ).loc main_arg9))
          (m ((c : Thread nD τ).loc main_arg17)) (m ((c : Thread nD τ).loc main_arg19)) (m ((c : Thread nD τ).loc main_arg18)) (m ((c : Thread nD τ).loc main_arg20)) (m ((c : Thread nD τ).loc main_arg21)) := by
  show _ = Sage.head (Sage.layer (A m c (s1 m c)) (s1 m c) (m ((c : Thread nD τ).loc main_arg17)) (m ((c : Thread nD τ).loc main_arg19)) (m ((c : Thread nD τ).loc main_arg18))) (m ((c : Thread nD τ).loc main_arg20)) (m ((c : Thread nD τ).loc main_arg21))
  refine (W4_arr m ρ c 7).trans ?_
  refine (SageRegion1.final1 (V3 m ρ) c).trans ?_
  have hs := first_call m ρ c
  have h26 := W2_arg m ρ c main_arg26 (by decide) (SageHost.keep0_arg26 (W0 m ρ c))
  have h27 := W2_arg m ρ c main_arg27 (by decide) (SageHost.keep0_arg27 (W0 m ρ c))
  have h17 := W2_arg m ρ c main_arg17 (by decide) (SageHost.keep0_arg17 (W0 m ρ c))
  have h18 := W2_arg m ρ c main_arg18 (by decide) (SageHost.keep0_arg18 (W0 m ρ c))
  have h19 := W2_arg m ρ c main_arg19 (by decide) (SageHost.keep0_arg19 (W0 m ρ c))
  have h20 := W2_arg m ρ c main_arg20 (by decide) (SageHost.keep0_arg20 (W0 m ρ c))
  have h21 := W2_arg m ρ c main_arg21 (by decide) (SageHost.keep0_arg21 (W0 m ρ c))
  exact SageRegion1.G1_eq (V3 m ρ) c
    ((SageHost.after1_v39 (W2 m ρ c)).trans (by rw [hs, h26, h27]))
    ((SageHost.keep1_v20 (W2 m ρ c)).trans hs)
    ((SageHost.keep1_arg17 (W2 m ρ c)).trans h17)
    ((SageHost.keep1_arg19 (W2 m ρ c)).trans h19)
    (by
      rw [show (V3 m ρ c main_v40 : S1x128.Idx → EReal) = shapeCast S1x128 (m ((c : Thread nD τ).loc main_arg18)) shapeCasts_S128_S1x128
        from (SageHost.after1_v40 (W2 m ρ c)).trans (by rw [h18])]
      exact bias_row _ _)
    ((SageHost.keep1_arg20 (W2 m ρ c)).trans h20)
    (by
      rw [show (V3 m ρ c main_v41 : S1x2.Idx → EReal) = shapeCast S1x2 (m ((c : Thread nD τ).loc main_arg21)) shapeCasts_S2_S1x2
        from (SageHost.after1_v41 (W2 m ρ c)).trans (by rw [h21])]
      exact bias_row _ _)

/-- The run, read: every weakly fair execution terminates with the result array at the network of the arguments
    and the arguments unchanged. -/
theorem run : θ_run defs (onTc (τ := τ) (main (F := Ideal))) ⟨m, fun _ => 0, ρ⟩ (fun r => ∀ c : Dev nD,
      r.2.mem ((c.tc : Thread nD τ).loc main_v42)
        = Sage.net (A m c) (m ((c : Thread nD τ).loc main_arg0)) (m ((c : Thread nD τ).loc main_arg8)) (m ((c : Thread nD τ).loc main_arg10)) (m ((c : Thread nD τ).loc main_arg9))
            (m ((c : Thread nD τ).loc main_arg17)) (m ((c : Thread nD τ).loc main_arg19)) (m ((c : Thread nD τ).loc main_arg18)) (m ((c : Thread nD τ).loc main_arg20)) (m ((c : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨(h c).1.trans (result_eq m ρ c), (h c).2⟩) (SageRun.run_result m ρ)

end Cert.KernelIdeal.SageValue

end
-- ==== Proof.SageRef.lean ====
/-
  The reference's result, as the network of SageSpec over the extended reals.

  The reference's run ends with its result at the composed term of its operations. Read one stage at a time:
  the neighbour mean (gather, per-destination sum, division by the clipped in-degree) is carried as ONE
  function `agg` and never opened; each layer is  relu((agg · Wl + b) + x · Wr), which is the specification's
  layer because the bias may be added before or after the second product; the last stage is the linear map.
  The dead branch of the reference (the 'roi' nodes) does not reach the result and does not appear.
-/
import proofs.«422410_j35562329210980_1_alg».proof.Proof.Gen.ReferenceIdeal.Run
import proofs.«422410_j35562329210980_1_alg».proof.Proof.Gen.ReferenceIdeal.Read
import proofs.«422410_j35562329210980_1_alg».proof.Proof.SageSpec
import Idealize.ShloMosaic.PureOps.Ideal.Laws
import Idealize.ShloMosaic.Lib.ValueIdx

noncomputable section

namespace Cert.ReferenceIdeal.SageRef

open Cert.ReferenceIdeal Cert.ReferenceIdeal.Gen Cert.ReferenceIdeal.Read Idealize.ShloMosaic Idealize.ShloMosaic.TcCoe Idealize.SL.Sem Idealize.ShloMosaic.ValueIdx

/-- The host's mean over incoming neighbours, as printed: gather the source rows, add them up per destination,
    divide by the in-degree clipped below at one. -/
def agg {F : FTy → Type} [FloatOps F] (x : FVec F S50000x128 .f32) (src dst : IVec S800000 32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- The first layer's aggregated input is `agg` of the node features. -/
theorem v71_eq {F : FTy → Type} [FloatOps F] (x0 : FVec F S50000x128 .f32) (x26 x27 : IVec S800000 32) :
    val_main_v71 (F := F) x0 x26 x27 = agg x0 x26 x27 := rfl

/-- The second layer's aggregated input is `agg` of the first layer's result. -/
theorem v98_eq {F : FTy → Type} [FloatOps F] (x0 : FVec F S50000x128 .f32) (x8 : FVec F S128x128 .f32) (x9 : FVec F S128 .f32)
    (x10 : FVec F S128x128 .f32) (x26 x27 : IVec S800000 32) :
    val_main_v98 (F := F) x0 x8 x9 x10 x26 x27 = agg (val_main_v79 (F := F) x0 x8 x9 x10 x26 x27) x26 x27 := rfl

/-! ## The printed index functions are the coordinate constructors -/

theorem l72 (i : S50000x128.Idx) (k : Fin 128) : lidx_main_v72 i k = ix2 (i 0) k :=
  funext fun a => by match a with | ⟨0, _⟩ => rfl | ⟨1, _⟩ => rfl
theorem r72 (i : S50000x128.Idx) (k : Fin 128) : ridx_main_v72 i k = ix2 k (i 1) :=
  funext fun a => by match a with | ⟨0, _⟩ => rfl | ⟨1, _⟩ => rfl
theorem l76 (i : S50000x128.Idx) (k : Fin 128) : lidx_main_v76 i k = ix2 (i 0) k :=
  funext fun a => by match a with | ⟨0, _⟩ => rfl | ⟨1, _⟩ => rfl
theorem r76 (i : S50000x128.Idx) (k : Fin 128) : ridx_main_v76 i k = ix2 k (i 1) :=
  funext fun a => by match a with | ⟨0, _⟩ => rfl | ⟨1, _⟩ => rfl
theorem b74 (i : S50000x128.Idx) : idx_main_v73 (idx_main_v74 i) = ix1 (i 1) :=
  funext fun a => by match a with | ⟨0, _⟩ => rfl
theorem l99 (i : S50000x128.Idx) (k : Fin 128) : lidx_main_v99 i k = ix2 (i 0) k :=
  funext fun a => by match a with | ⟨0, _⟩ => rfl | ⟨1, _⟩ => rfl
theorem r99 (i : S50000x128.Idx) (k : Fin 128) : ridx_main_v99 i k = ix2 k (i 1) :=
  funext fun a => by match a with | ⟨0, _⟩ => rfl | ⟨1, _⟩ => rfl
theorem l103 (i : S50000x128.Idx) (k : Fin 128) : lidx_main_v103 i k = ix2 (i 0) k :=
  funext fun a => by match a with | ⟨0, _⟩ => rfl | ⟨1, _⟩ => rfl
theorem r103 (i : S50000x128.Idx) (k : Fin 128) : ridx_main_v103 i k = ix2 k (i 1) :=
  funext fun a => by match a with | ⟨0, _⟩ => rfl | ⟨1, _⟩ => rfl
theorem b101 (i : S50000x128.Idx) : idx_main_v100 (idx_main_v101 i) = ix1 (i 1) :=
  funext fun a => by match a with | ⟨0, _⟩ => rfl
theorem l106 (i : S50000x2.Idx) (k : Fin 128) : lidx_main_v106 i k = ix2 (i 0) k :=
  funext fun a => by match a with | ⟨0, _⟩ => rfl | ⟨1, _⟩ => rfl
theorem r106 (i : S50000x2.Idx) (k : Fin 128) : ridx_main_v106 i k = ix2 k (i 1) :=
  funext fun a => by match a with | ⟨0, _⟩ => rfl | ⟨1, _⟩ => rfl
theorem b108 (i : S50000x2.Idx) : idx_main_v107 (idx_main_v108 i) = ix1 (i 1) :=
  funext fun a => by match a with | ⟨0, _⟩ => rfl

/-! ## The stages -/

/-- The first layer. -/
theorem layer1_eq (x0 : FVec Ideal S50000x128 .f32) (x8 : FVec Ideal S128x128 .f32) (x9 : FVec Ideal S128 .f32)
    (x10 : FVec Ideal S128x128 .f32) (x26 x27 : IVec S800000 32) :
    val_main_v79 (F := Ideal) x0 x8 x9 x10 x26 x27 = Sage.layer (agg (F := Ideal) x0 x26 x27) x0 x8 x10 x9 := by
  funext i
  rw [val_main_v79_apply, val_main_v77_apply, val_main_v75_apply, val_main_v72_apply, val_main_v74_apply, val_main_v73_apply,
    val_main_v76_apply, val_main_call1_v0_apply, val_main_call1_cst_apply, v71_eq]
  simp only [l72, r72, l76, r76, b74]
  rw [show (FloatOps.ofBits (F := Ideal) FTy.f32 0#32) = 0 from Ideal.ofBits_zero_f32]
  exact Sage.layerAt_eq_biasFirst (agg (F := Ideal) x0 x26 x27) x0 x8 x10 x9 (i 0) (i 1)

/-- The second layer, on the first layer's result `s`. -/
theorem layer2_eq (x0 : FVec Ideal S50000x128 .f32) (x8 : FVec Ideal S128x128 .f32) (x9 : FVec Ideal S128 .f32)
    (x10 x17 : FVec Ideal S128x128 .f32) (x18 : FVec Ideal S128 .f32) (x19 : FVec Ideal S128x128 .f32) (x26 x27 : IVec S800000 32) :
    val_main_v105 (F := Ideal) x0 x8 x9 x10 x17 x18 x19 x26 x27
      = Sage.layer (agg (F := Ideal) (val_main_v79 (F := Ideal) x0 x8 x9 x10 x26 x27) x26 x27) (val_main_v79 (F := Ideal) x0 x8 x9 x10 x26 x27) x17 x19 x18 := by
  funext i
  rw [val_main_v105_apply, val_main_v104_apply, val_main_v102_apply, val_main_v99_apply, val_main_v101_apply, val_main_v100_apply,
    val_main_v103_apply, val_main_call2_v0_apply, val_main_call2_cst_apply, v98_eq]
  simp only [l99, r99, l103, r103, b101]
  rw [show (FloatOps.ofBits (F := Ideal) FTy.f32 0#32) = 0 from Ideal.ofBits_zero_f32]
  exact Sage.layerAt_eq_biasFirst (agg (F := Ideal) (val_main_v79 (F := Ideal) x0 x8 x9 x10 x26 x27) x26 x27) (val_main_v79 (F := Ideal) x0 x8 x9 x10 x26 x27) x17 x19 x18 (i 0) (i 1)

/-- The last stage: the linear map on the second layer's result. -/
theorem head_eq (x0 : FVec Ideal S50000x128 .f32) (x8 : FVec Ideal S128x128 .f32) (x9 : FVec Ideal S128 .f32)
    (x10 x17 : FVec Ideal S128x128 .f32) (x18 : FVec Ideal S128 .f32) (x19 : FVec Ideal S128x128 .f32)
    (x20 : FVec Ideal S128x2 .f32) (x21 : FVec Ideal S2 .f32) (x26 x27 : IVec S800000 32) :
    val_main_v109 (F := Ideal) x0 x8 x9 x10 x17 x18 x19 x20 x21 x26 x27
      = Sage.head (val_main_v105 (F := Ideal) x0 x8 x9 x10 x17 x18 x19 x26 x27) x20 x21 := by
  funext i
  rw [val_main_v109_apply, val_main_v106_apply, val_main_v108_apply, val_main_v107_apply]
  simp only [l106, r106, b108]
  rfl

/-- The reference's result is the network of the arguments. -/
theorem result_eq (m : (ℓ : Loc nD τ sig) → Buf (Elt Ideal) ℓ) (c : Dev nD) :
    Cert.ReferenceIdeal.Value.res_main_v109 (F := Ideal) m c
      = Sage.net (fun x => agg (F := Ideal) x (m ((c.tc : Thread nD τ).loc main_arg26)) (m ((c.tc : Thread nD τ).loc main_arg27)))
          (m ((c.tc : Thread nD τ).loc main_arg0))
          (m ((c.tc : Thread nD τ).loc main_arg8)) (m ((c.tc : Thread nD τ).loc main_arg10)) (m ((c.tc : Thread nD τ).loc main_arg9))
          (m ((c.tc : Thread nD τ).loc main_arg17)) (m ((c.tc : Thread nD τ).loc main_arg19)) (m ((c.tc : Thread nD τ).loc main_arg18))
          (m ((c.tc : Thread nD τ).loc main_arg20)) (m ((c.tc : Thread nD τ).loc main_arg21)) := by
  rw [val_main_v109_eq, head_eq, layer2_eq, layer1_eq]
  rfl

end Cert.ReferenceIdeal.SageRef

end
-- ==== Proof.lean ====
/-
  The certificate's claims.

  Kernel and reference are the same two-layer mean-aggregation network followed by a linear map. Over the extended
  reals the kernel program's result array and the reference's are both `Sage.net` of the arguments
  (SageValue `run`, SageRef `result_eq`): a change of float format is the identity, a product into a zero
  accumulator is the plain sum of products, and the only rearrangement is where the bias is added inside a layer
  (commutativity and associativity of addition, which hold at the infinities too, so the precondition is not used).
  The neighbour aggregation is the same host operations on both sides and is never opened; the reference's 'roi'
  branch does not reach its result. The three frames are the generated ones (the reference's is its run with the
  result dropped), and no rewrite is recorded between the kernel and its idealization, so `preserves` asks nothing.
-/
import proofs.«422410_j35562329210980_1_alg».proof.Defs
import proofs.«422410_j35562329210980_1_alg».proof.Proof.Gen.Kernel
import proofs.«422410_j35562329210980_1_alg».proof.Proof.Gen.Kernel.Skeleton
import proofs.«422410_j35562329210980_1_alg».proof.Proof.Gen.Kernel.Launch
import proofs.«422410_j35562329210980_1_alg».proof.Proof.Gen.Kernel.Points
import proofs.«422410_j35562329210980_1_alg».proof.Proof.Gen.Kernel.Frame
import proofs.«422410_j35562329210980_1_alg».proof.Proof.Gen.KernelIdeal
import proofs.«422410_j35562329210980_1_alg».proof.Proof.Gen.KernelIdeal.Skeleton
import proofs.«422410_j35562329210980_1_alg».proof.Proof.Gen.KernelIdeal.Launch
import proofs.«422410_j35562329210980_1_alg».proof.Proof.Gen.KernelIdeal.Points
import proofs.«422410_j35562329210980_1_alg».proof.Proof.Gen.KernelIdeal.Frame
import proofs.«422410_j35562329210980_1_alg».proof.Proof.Gen.ReferenceIdeal
import proofs.«422410_j35562329210980_1_alg».proof.Proof.Gen.ReferenceIdeal.Run
import proofs.«422410_j35562329210980_1_alg».proof.Proof.Gen.Pre_finite_inputs
import proofs.«422410_j35562329210980_1_alg».proof.Proof.SageSpec
import proofs.«422410_j35562329210980_1_alg».proof.Proof.SageValue
import proofs.«422410_j35562329210980_1_alg».proof.Proof.SageRef
import Idealize.ShloMosaic.Adequacy
import Idealize.ShloMosaic.Init

noncomputable section

namespace Cert.Proof

open Idealize.ShloMosaic Idealize.ShloMosaic.TcCoe Idealize.SL.Sem

/-- The two programs print the same neighbour aggregation. -/
theorem agg_eq (x : FVec Ideal Cert.KernelIdeal.S50000x128 .f32) (src dst : IVec Cert.KernelIdeal.S800000 32) :
    Cert.ReferenceIdeal.SageRef.agg (F := Ideal) x src dst = Cert.KernelIdeal.SageHost.agg (F := Ideal) x src dst := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of arguments that agree. -/
theorem algebraic : Cert.algebraic_KernelIdeal_ReferenceIdeal := by
  intro m ρ m' ρ' _ hagree
  refine ⟨_, Cert.KernelIdeal.SageValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27⟩ := hagree c
  rw [Cert.ReferenceIdeal.SageRef.result_eq, h0, h8, h9, h10, h17, h18, h19, h20, h21, h26, h27]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
